-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x128 : Shape := ⟨3, ![16, 1024, 128]⟩
abbrev S16x1024x1024 : Shape := ⟨3, ![16, 1024, 1024]⟩
abbrev S128x128 : Shape := ⟨2, ![128, 128]⟩
abbrev S128 : Shape := ⟨1, ![128]⟩
abbrev S_ : Shape := ⟨0, ![]⟩

class Facts : Prop where
  bcast_S_S16x1024x128 : S_.BroadcastsInDim S16x1024x128 (![] : Fin 0 → Fin S16x1024x128.rank)
  reducesTo_S16x1024x128_S_d0_1_2 : S16x1024x128.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x1024x128 .f32) (main_arg1 : FVec F S16x1024x1024 .f32) (main_arg2 : FVec F S128x128 .f32) (main_arg3 : FVec F S128 .f32) : IVec S_ 1 :=
  let main_v0 : FVec F S16x1024x128 .f32 := Host.absf main_arg0
  let main_cst : FVec F S_ .f32 := constant S_ .f32 0x7F800000#32
  let main_v1 : FVec F S16x1024x128 .f32 := broadcastInDim S16x1024x128 ![] bcast_S_S16x1024x128 main_cst
  let main_v2 : IVec S16x1024x128 1 := cmpf .olt main_v0 main_v1
  let main_c : IVec S_ 1 := constantI S_ 1 1#1
  let main_v3 : IVec S_ 1 := (fun x v => Host.reduce IntOp.andi x v reducesTo_S16x1024x128_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x1024x128 : Shape := ⟨3, ![16, 1024, 128]⟩
abbrev S16x1024x1024 : Shape := ⟨3, ![16, 1024, 1024]⟩
abbrev S128x128 : Shape := ⟨2, ![128, 128]⟩
abbrev S128 : Shape := ⟨1, ![128]⟩
abbrev S1x128 : Shape := ⟨2, ![1, 128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1024 : Shape := ⟨1, ![1024]⟩
abbrev S1024x1 : Shape := ⟨2, ![1024, 1]⟩
abbrev S1024x128 : Shape := ⟨2, ![1024, 128]⟩

abbrev nBuf : Space → Nat
  | .hbm => 7
  | .vmem => 8
  | .smem => 0
  | _ => 0

abbrev bufTy : (tb : Table) → Fin (tcTables nBuf tb) → BufTy
  | .hbm, ⟨0, _⟩ => ⟨S16x1024x128, .f32⟩
  | .hbm, ⟨1, _⟩ => ⟨S16x1024x1024, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x128, .f32⟩
  | .hbm, ⟨6, _⟩ => ⟨S16x1024x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S128x128, .f32⟩
  | .local _ .vmem, ⟨5, _⟩ => ⟨S1x128, .f32⟩
  | .local _ .vmem, ⟨6, _⟩ => ⟨S1x1024x128, .f32⟩
  | .local _ .vmem, ⟨7, _⟩ => ⟨S1x1024x128, .f32⟩
  | _, _ => ⟨S16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x128_S128x128_1_0 : S128x128.Transposes [1, 0] S128x128
  shapeCasts_S128_S1x128 : S128.ShapeCasts S1x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S1024x128_S1x1024x128 : S1024x128.ShapeCasts S1x1024x128
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S16x1024x128.size a
  hwx0_1 : ∀ i : grid0.Coords, EltTy.bits .f32 = 32 ∨ (Rect.block (s := S16x1024x128) S1x1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S16x1024x128.size a
  hwx0_4 : ∀ i : grid0.Coords, EltTy.bits .f32 = 32 ∨ (Rect.block (s := S16x1024x128) S1x1024x128.size (cc0_transform_4 i) (hinb0_4 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x128 : Shape := ⟨3, ![16, 1024, 128]⟩
abbrev S16x1024x1024 : Shape := ⟨3, ![16, 1024, 1024]⟩
abbrev S128x128 : Shape := ⟨2, ![128, 128]⟩
abbrev S128 : Shape := ⟨1, ![128]⟩
abbrev S_ : Shape := ⟨0, ![]⟩
abbrev S16x1024 : Shape := ⟨2, ![16, 1024]⟩
abbrev S16x1024x1 : Shape := ⟨3, ![16, 1024, 1]⟩
abbrev S1x1x128 : Shape := ⟨3, ![1, 1, 128]⟩

abbrev nBuf : Space → Nat
  | .hbm => 21
  | .vmem => 0
  | .smem => 0
  | _ => 0

abbrev bufTy : (tb : Table) → Fin (tcTables nBuf tb) → BufTy
  | .hbm, ⟨0, _⟩ => ⟨S16x1024x128, .f32⟩
  | .hbm, ⟨1, _⟩ => ⟨S16x1024x1024, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S16x1024, .f32⟩
  | .hbm, ⟨6, _⟩ => ⟨S16x1024x1, .f32⟩
  | .hbm, ⟨7, _⟩ => ⟨S16x1024x1024, .f32⟩
  | .hbm, ⟨8, _⟩ => ⟨S16x1024x1024, .f32⟩
  | .hbm, ⟨9, _⟩ => ⟨S16x1024x128, .f32⟩
  | .hbm, ⟨10, _⟩ => ⟨S16x1024x128, .f32⟩
  | .hbm, ⟨11, _⟩ => ⟨S1x1x128, .f32⟩
  | .hbm, ⟨12, _⟩ => ⟨S16x1024x128, .f32⟩
  | .hbm, ⟨13, _⟩ => ⟨S16x1024x128, .f32⟩
  | .hbm, ⟨14, _⟩ => ⟨S_, .f32⟩
  | .hbm, ⟨15, _⟩ => ⟨S16x1024x128, .f32⟩
  | .hbm, ⟨16, _⟩ => ⟨S16x1024x128, .i1⟩
  | .hbm, ⟨17, _⟩ => ⟨S_, .f32⟩
  | .hbm, ⟨18, _⟩ => ⟨S16x1024x128, .f32⟩
  | .hbm, ⟨19, _⟩ => ⟨S16x1024x128, .f32⟩
  | .hbm, ⟨20, _⟩ => ⟨S16x1024x128, .f32⟩
  | _, _ => ⟨S16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S16x1024x1024_S16x1024_d2 : S16x1024x1024.ReducesTo [2] S16x1024
  h_S_ : 0 < S_.numel
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S128_S1x1x128_2 : S128.BroadcastsInDim S1x1x128 (![2] : Fin 1 → Fin S1x1x128.rank)
  bcast_S1x1x128_S16x1024x128_0_1_2 : S1x1x128.BroadcastsInDim S16x1024x128 (![0, 1, 2] : Fin 3 → Fin S16x1024x128.rank)
  bcast_S_S16x1024x128 : S_.BroadcastsInDim S16x1024x128 (![] : Fin 0 → Fin S16x1024x128.rank)
  dot_S16x1024x1024_S16x1024x128_S16x1024x128_2_1_1_2_0_0_wf : DotDims.WF S16x1024x1024 S16x1024x128 S16x1024x128 [2] [1] [1] [2] [0] [0]
  dot_S16x1024x128_S128x128_S16x1024x128_2_1_01_0_n_n_wf : DotDims.WF S16x1024x128 S128x128 S16x1024x128 [2] [1] [0, 1] [0] [] []

variable [Facts₀]

def dot_S16x1024x1024_S16x1024x128_S16x1024x128_2_1_1_2_0_0 : DotDims S16x1024x1024 S16x1024x128 S16x1024x128 where
  lhsContracting := [2]
  rhsContracting := [1]
  lhsNonContracting := [1]
  rhsNonContracting := [2]
  lhsBatch := [0]
  rhsBatch := [0]
  wf := dot_S16x1024x1024_S16x1024x128_S16x1024x128_2_1_1_2_0_0_wf
def dot_S16x1024x128_S128x128_S16x1024x128_2_1_01_0_n_n : DotDims S16x1024x128 S128x128 S16x1024x128 where
  lhsContracting := [2]
  rhsContracting := [1]
  lhsNonContracting := [0, 1]
  rhsNonContracting := [0]
  lhsBatch := []
  rhsBatch := []
  wf := dot_S16x1024x128_S128x128_S16x1024x128_2_1_01_0_n_n_wf

class Facts : Prop extends Facts₀ where

variable [Facts]
-- ==== Proof.GnnSpec.lean ====
/-
  One entry of a degree-normalised graph layer, on the extended reals.

  A row `a` of non-negative or arbitrary adjacency weights is divided, entry by entry, by the row's own sum; the
  normalised row weights the rows `x m` of the node features; the mixed feature vector is mapped through one row
  `w` of the output weights and shifted by a bias; a leaky rectifier closes:
      leaky ( Σ_f ( Σ_m (a m / Σ_m' a m') · x m f ) · w f  +  β ).
  Every operation is the exact one of the extended reals (the quotient is `Ideal.div`, whatever the row sum is),
  so the formula is meaningful at every input, infinities included.  `layer` lays the entry out over a batch of
  16 graphs of 1024 nodes with 128 input and 128 output features.
-/
import Idealize.ShloMosaic.PureOps.Ideal
import Idealize.ShloMosaic.Lib.ValueIdx

noncomputable section

namespace Cert.Gnn

open Idealize.ShloMosaic Idealize.ShloMosaic.ValueIdx

/-- The leaky rectifier: `y` where `y ≥ 0`, else the slope times `y`; the slope is the single-precision number
    nearest to one hundredth, read as the exact dyadic it is. -/
def leaky (y : EReal) : EReal :=
  Scalar.select (Ideal.cmp .oge y (Ideal.ofBits .f32 0x00000000#32)) y (Ideal.ofBits .f32 0x3C23D70A#32 * y)

/-- One output entry from a row `a` of adjacency weights, the node features `x`, one row `w` of the output weights
    and the bias `β`. -/
def entry (a : Fin 1024 → EReal) (x : Fin 1024 → Fin 128 → EReal) (w : Fin 128 → EReal) (β : EReal) : EReal :=
  leaky ((∑ f : Fin 128, (∑ m : Fin 1024, Ideal.div (a m) (∑ m' : Fin 1024, a m') * x m f) * w f) + β)

/-- The layer over the batch: entry `(g, n, o)` uses row `n` of graph `g`'s adjacency, graph `g`'s node features,
    row `o` of the weight matrix and entry `o` of the bias. -/
def layer (node : (⟨3, ![16, 1024, 128]⟩ : Shape).Idx → EReal) (adj : (⟨3, ![16, 1024, 1024]⟩ : Shape).Idx → EReal)
    (W : (⟨2, ![128, 128]⟩ : Shape).Idx → EReal) (b : (⟨1, ![128]⟩ : Shape).Idx → EReal) :
    (⟨3, ![16, 1024, 128]⟩ : Shape).Idx → EReal :=
  fun i => entry (fun m => adj (ix3 (i 0) (i 1) m)) (fun m f => node (ix3 (i 0) m f)) (fun f => W (ix2 (i 2) f)) (b (ix1 (i 2)))

/-- The layer at an index given by its coordinates. -/
theorem layer_ix3 (node : (⟨3, ![16, 1024, 128]⟩ : Shape).Idx → EReal) (adj : (⟨3, ![16, 1024, 1024]⟩ : Shape).Idx → EReal)
    (W : (⟨2, ![128, 128]⟩ : Shape).Idx → EReal) (b : (⟨1, ![128]⟩ : Shape).Idx → EReal) (g : Fin 16) (n : Fin 1024) (o : Fin 128) :
    layer node adj W b (ix3 g n o)
      = entry (fun m => adj (ix3 g n m)) (fun m f => node (ix3 g m f)) (fun f => W (ix2 o f)) (b (ix1 o)) := rfl

end Cert.Gnn

end
-- ==== Proof.LibColumn.lean ====
/-
  Layout operations on a column, read at an index: the forms a sum taken with its axis kept meets.
  A vector of `a` entries cast to a column `[a, 1]`; a column broadcast along a new second axis to `[a, b]`; a single
  entry `[1, 1]` broadcast to every place of `[a, b]`; and a one-element array recast as a scalar and back.
  Each operation only relabels: the entry read is named by its coordinates.
-/
import Idealize.ShloMosaic.Lib.Pipeline.Value
import Idealize.ShloMosaic.Lib.ValueIdx

namespace Cert.LibColumn

open Idealize.ShloMosaic Idealize.ShloMosaic.ValueIdx

variable {α : Type}

/-- A vector cast to a column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry broadcast to `[a, b]` reads that entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A one-element array recast as a scalar holds its one entry. -/
theorem shapeCast_1_scalar_apply (x : (⟨1, ![1]⟩ : Shape).Idx → α) (h : (⟨1, ![1]⟩ : Shape).ShapeCasts ⟨0, ![]⟩)
    (j : (⟨0, ![]⟩ : Shape).Idx) : shapeCast ⟨0, ![]⟩ x h j = x (ix1 0) := by
  unfold shapeCast
  exact congrArg x (funext fun d => match d with | ⟨0, _⟩ => Fin.ext (Nat.lt_one_iff.mp (Fin.isLt _)))

/-- A scalar recast as a `[1, 1]` array holds the scalar at its one place. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 := by
  unfold shapeCast
  exact congrArg x (funext fun d => d.elim0)

end Cert.LibColumn
-- ==== Proof.KernelPayload.lean ====
/-
  What the kernel body computes for one graph of the batch, entry by entry.

  The body holds one graph's blocks: its adjacency `[1, 1024, 1024]`, its node features `[1, 1024, 128]`, the
  transposed weight matrix `[128, 128]` and the bias as one row `[1, 128]`.  It sums each adjacency row, divides
  the row by that sum, multiplies the normalised adjacency into the features, the result into the transposed
  weights, adds the bias row to every row and applies the leaky rectifier.  On the extended reals a change of
  float format is the identity and a matrix product into a zero accumulator is the plain sum over the contracted
  coordinate, so entry `(n, o)` of what is stored is `Cert.Gnn.entry` of row `n` of the adjacency block, the
  feature block, column `o` of the transposed weights and entry `o` of the bias row.
-/
import proofs.«179167_j24876450579116_1_alg».proof.Proof.Gen.KernelIdeal.Skeleton
import proofs.«179167_j24876450579116_1_alg».proof.Proof.GnnSpec
import proofs.«179167_j24876450579116_1_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.GnnBlock

open Cert.KernelIdeal Cert.KernelIdeal.Gen Idealize.ShloMosaic Idealize.ShloMosaic.ValueIdx

/-! ## The two matrix products, read at an entry -/

/-- In the product of the normalised adjacency with the features, the left operand is read in the output's row … -/
theorem lhs_mix_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
/-- … at the contracted coordinate; -/
theorem lhs_mix_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- the right operand in the row of the contracted coordinate … -/
theorem rhs_mix_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- … and the output's column. -/
theorem rhs_mix_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product of a `[1024, 1024]` matrix with a `[1024, 128]` one into zero: entry `(n, f)` is the sum over `m`. -/
theorem mix_apply (A : FVec Ideal S1024x1024 .bf16) (X : FVec Ideal S1024x128 .bf16) (n : Fin 1024) (f : Fin 128) :
    matmul dot_S1024x1024_S1024x128_S1024x128_1_0_0_1_n_n none A X (constant (F := Ideal) S1024x128 .f32 0x00000000#32) (ix2 n f)
      = ∑ m : Fin 1024, A (ix2 n m) * X (ix2 m f) := by
  show FloatOps.matmul _ none A X _ (ix2 n f) = _
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 n f) ((contrEquiv1 dot_S1024x1024_S1024x128_S1024x128_1_0_0_1_n_n 1024 rfl rfl).symm k) = ix2 n k := funext fun a => Fin.ext (by
    match a with
    | ⟨0, _⟩ => exact lhs_mix_0 _ _
    | ⟨1, _⟩ => exact (lhs_mix_1 _ _).trans hk)
  have er : dot_S1024x1024_S1024x128_S1024x128_1_0_0_1_n_n.rhsIdx (ix2 n f) ((contrEquiv1 dot_S1024x1024_S1024x128_S1024x128_1_0_0_1_n_n 1024 rfl rfl).symm k) = ix2 k f := funext fun a => Fin.ext (by
    match a with
    | ⟨0, _⟩ => exact (rhs_mix_0 _ _).trans hk
    | ⟨1, _⟩ => exact rhs_mix_1 _ _)
  rw [el, er]

/-- In the product with the transposed weights, the left operand is read in the output's row … -/
theorem lhs_lin_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- … at the contracted coordinate; -/
theorem lhs_lin_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- the right operand in the row of the contracted coordinate … -/
theorem rhs_lin_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- … and the output's column. -/
theorem rhs_lin_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The product of a `[1024, 128]` matrix with a `[128, 128]` one into zero: entry `(n, o)` is the sum over `f`. -/
theorem lin_apply (Y : FVec Ideal S1024x128 .bf16) (Wt : FVec Ideal S128x128 .bf16) (n : Fin 1024) (o : Fin 128) :
    matmul dot_S1024x128_S128x128_S1024x128_1_0_0_1_n_n none Y Wt (constant (F := Ideal) S1024x128 .f32 0x00000000#32) (ix2 n o)
      = ∑ f : Fin 128, Y (ix2 n f) * Wt (ix2 f o) := by
  show FloatOps.matmul _ none Y Wt _ (ix2 n o) = _
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 n o) ((contrEquiv1 dot_S1024x128_S128x128_S1024x128_1_0_0_1_n_n 128 rfl rfl).symm k) = ix2 n k := funext fun a => Fin.ext (by
    match a with
    | ⟨0, _⟩ => exact lhs_lin_0 _ _
    | ⟨1, _⟩ => exact (lhs_lin_1 _ _).trans hk)
  have er : dot_S1024x128_S128x128_S1024x128_1_0_0_1_n_n.rhsIdx (ix2 n o) ((contrEquiv1 dot_S1024x128_S128x128_S1024x128_1_0_0_1_n_n 128 rfl rfl).symm k) = ix2 k o := funext fun a => Fin.ext (by
    match a with
    | ⟨0, _⟩ => exact (rhs_lin_0 _ _).trans hk
    | ⟨1, _⟩ => exact rhs_lin_1 _ _)
  rw [el, er]

/-! ## The stages of the body -/

/-- The sum of row `n` of a `[1024, 1024]` matrix. -/
theorem rowsum_apply (v : FVec Ideal S1024x1024 .f32) (n : Fin 1024) :
    multiReduction (F := Ideal) .add [1] S1024 v 0x00000000#32 reduces_S1024x1024_S1024 (.inl rfl) rfl (ix1 n)
      = ∑ m : Fin 1024, v (ix2 n m) := by
  refine (Ideal.multiReduction_add_single v 0x00000000#32 reduces_S1024x1024_S1024 (.inl rfl) rfl (ix1 n)).trans ?_
  refine Finset.sum_congr rfl fun m _ => congrArg v ?_
  funext a; apply Fin.ext
  match a with
  | ⟨0, _⟩ => rfl
  | ⟨1, _⟩ => rfl

/-- The adjacency block with every row divided by its sum. -/
def normAdj (x0 : Vec Ideal S1x1024x1024 .f32) : FVec Ideal S1024x1024 .bf16 :=
  truncf .bf16 (divf (shapeCast S1024x1024 x0 shapeCasts_S1x1024x1024_S1024x1024)
    (broadcastTo S1024x1024 (shapeCast S1024x1 (multiReduction (F := Ideal) .add [1] S1024 (shapeCast S1024x1024 x0 shapeCasts_S1x1024x1024_S1024x1024) 0x00000000#32 reduces_S1024x1024_S1024 (.inl rfl) rfl) shapeCasts_S1024_S1024x1) broadcasts_S1024x1_S1024x1024)) bitsLt_bf16_f32

/-- Entry `(n, m)` of the normalised adjacency: the adjacency entry over the sum of its row. -/
theorem normAdj_apply (x0 : Vec Ideal S1x1024x1024 .f32) (n m : Fin 1024) :
    normAdj x0 (ix2 n m) = Ideal.div (x0 (ix3 (0 : Fin 1) n m)) (∑ m' : Fin 1024, x0 (ix3 (0 : Fin 1) n m')) := by
  show Ideal.div (shapeCast S1024x1024 x0 shapeCasts_S1x1024x1024_S1024x1024 (ix2 n m))
    (broadcastTo S1024x1024 (shapeCast S1024x1 (multiReduction (F := Ideal) .add [1] S1024 (shapeCast S1024x1024 x0 shapeCasts_S1x1024x1024_S1024x1024) 0x00000000#32 reduces_S1024x1024_S1024 (.inl rfl) rfl) shapeCasts_S1024_S1024x1) broadcasts_S1024x1_S1024x1024 (ix2 n m)) = _
  rw [shapeCast_1ab_ab_apply, Cert.LibColumn.broadcastTo_a1_ab_apply, Cert.LibColumn.shapeCast_a_a1_apply, rowsum_apply]
  refine congrArg (Ideal.div (x0 (ix3 (0 : Fin 1) n m))) (Finset.sum_congr rfl fun m' _ => ?_)
  rw [shapeCast_1ab_ab_apply]

/-- The value before the rectifier: the two products and the bias row. -/
def preAct (x0 : Vec Ideal S1x1024x1024 .f32) (x1 : Vec Ideal S1x1024x128 .f32) (x2 : Vec Ideal S128x128 .f32) (x3 : Vec Ideal S1x128 .f32) :
    FVec Ideal S1024x128 .f32 :=
  addf (matmul dot_S1024x128_S128x128_S1024x128_1_0_0_1_n_n none
      (truncf .bf16 (matmul dot_S1024x1024_S1024x128_S1024x128_1_0_0_1_n_n none (normAdj x0) (truncf .bf16 (shapeCast S1024x128 x1 shapeCasts_S1x1024x128_S1024x128) bitsLt_bf16_f32) (constant (F := Ideal) S1024x128 .f32 0x00000000#32)) bitsLt_bf16_f32)
      (truncf .bf16 (shapeCast S128x128 x2 shapeCasts_S128x128_S128x128) bitsLt_bf16_f32) (constant (F := Ideal) S1024x128 .f32 0x00000000#32))
    (broadcastTo S1024x128 (shapeCast S1x128 x3 shapeCasts_S1x128_S1x128) broadcasts_S1x128_S1024x128)

/-- Entry `(n, o)` before the rectifier. -/
theorem preAct_apply (x0 : Vec Ideal S1x1024x1024 .f32) (x1 : Vec Ideal S1x1024x128 .f32) (x2 : Vec Ideal S128x128 .f32) (x3 : Vec Ideal S1x128 .f32)
    (n : Fin 1024) (o : Fin 128) :
    preAct x0 x1 x2 x3 (ix2 n o)
      = (∑ f : Fin 128, (∑ m : Fin 1024, Ideal.div (x0 (ix3 (0 : Fin 1) n m)) (∑ m' : Fin 1024, x0 (ix3 (0 : Fin 1) n m')) * x1 (ix3 (0 : Fin 1) m f)) * x2 (ix2 f o))
        + x3 (ix2 (0 : Fin 1) o) := by
  unfold preAct
  rw [addf_apply, lin_apply, broadcastTo_1b_ab_apply, shapeCast_self x3, shapeCast_self x2]
  refine congrArg₂ (fun a b : EReal => a + b) (Finset.sum_congr rfl fun f _ => ?_) rfl
  rw [truncf_apply, truncf_apply, mix_apply]
  refine congrArg₂ (fun a b : EReal => a * b) (Finset.sum_congr rfl fun m _ => ?_) rfl
  rw [normAdj_apply, truncf_apply, shapeCast_1ab_ab_apply]

/-- The stored value is the rectifier of that, laid out with a leading unit axis. -/
theorem pay_eq (x0 : Vec Ideal S1x1024x1024 .f32) (x1 : Vec Ideal S1x1024x128 .f32) (x2 : Vec Ideal S128x128 .f32) (x3 : Vec Ideal S1x128 .f32) :
    k0_pay1 x0 x1 x2 x3
      = shapeCast S1x1024x128 (select (cmpf .oge (preAct x0 x1 x2 x3) (broadcast S1024x128 (Scalar.ofBits (F := Ideal) .f32 0x00000000#32)))
          (preAct x0 x1 x2 x3) (mulf (broadcast S1024x128 (Scalar.ofBits (F := Ideal) .f32 0x3C23D70A#32)) (preAct x0 x1 x2 x3))) shapeCasts_S1024x128_S1x1024x128 := rfl

/-- ENTRY `(n, o)` OF WHAT THE BODY STORES is the layer's entry from row `n` of the adjacency block, the feature
    block, column `o` of the transposed weights and entry `o` of the bias row. -/
theorem pay_apply (x0 : Vec Ideal S1x1024x1024 .f32) (x1 : Vec Ideal S1x1024x128 .f32) (x2 : Vec Ideal S128x128 .f32) (x3 : Vec Ideal S1x128 .f32)
    (u : Fin 1) (n : Fin 1024) (o : Fin 128) :
    k0_pay1 x0 x1 x2 x3 (ix3 u n o)
      = Cert.Gnn.entry (fun m => x0 (ix3 (0 : Fin 1) n m)) (fun m f => x1 (ix3 (0 : Fin 1) m f)) (fun f => x2 (ix2 f o)) (x3 (ix2 (0 : Fin 1) o)) := by
  rw [pay_eq, shapeCast_ab_1ab_apply]
  show Scalar.select (Ideal.cmp .oge (preAct x0 x1 x2 x3 (ix2 n o)) (Ideal.ofBits .f32 0x00000000#32)) (preAct x0 x1 x2 x3 (ix2 n o))
    (Ideal.ofBits .f32 0x3C23D70A#32 * preAct x0 x1 x2 x3 (ix2 n o)) = _
  rw [preAct_apply]
  rfl

end Cert.KernelIdeal.GnnBlock

end
-- ==== Proof.KernelValue.lean ====
/-
  From the blocks to the array: the kernel's result is the layer.

  The grid has one point per graph of the batch.  At point `t` the adjacency, feature and output windows hold graph
  `t`'s slab (block index `(t, 0, 0)`), the weight and bias windows the whole of their small arrays, which the
  host operations before the call made from the arguments: the weight matrix transposed, the bias recast as one row.
  So what point `t` writes back, entry `(n, o)`, is the layer's entry `(t, n, o)` of the ARGUMENT arrays: the
  transposed weights read at `(f, o)` are the weights at `(o, f)`.  The sixteen slabs cover the output array, hence
  the array after the run is the layer, index by index.
-/
import proofs.«179167_j24876450579116_1_alg».proof.Proof.Gen.KernelIdeal.Value
import proofs.«179167_j24876450579116_1_alg».proof.Proof.KernelPayload
import proofs.«179167_j24876450579116_1_alg».proof.Proof.GnnSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.GnnValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The grid point as a graph of the batch. -/
def graphOf (t : Fin cfg0.N) : Fin 16 := ⟨t.val, by have h : t.val < grid0.N := t.isLt; rw [N_0] at h; exact h⟩

/-- The windows' block indices over the grid: the three batched windows sit at slab `t`, the two small ones at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The arrays the region finds -/

/-- The weight window's array is the weight matrix transposed. -/
theorem wt_eq (c : Dev nD) : (V m c main_v0 : S128x128.Idx → EReal)
    = transpose S128x128 [1, 0] (m ((c : Thread nD τ).loc main_arg2)) transposes_S128x128_S128x128_1_0 := by
  dsimp only [Gen.V, Gen.hostOps0]; after_results

/-- The bias window's array is the bias recast as one row. -/
theorem brow_eq (c : Dev nD) : (V m c main_v1 : S1x128.Idx → EReal)
    = shapeCast S1x128 (m ((c : Thread nD τ).loc main_arg3)) shapeCasts_S128_S1x128 := by
  dsimp only [Gen.V, Gen.hostOps0]; after_results; rfl

/-! ## The blocks at a point, read at coordinates -/

/-- The adjacency block at point `t` is graph `t`'s adjacency. -/
theorem adj_read (c : Dev nD) (t : Fin cfg0.N) (n mm : Fin 1024) :
    iblk m c 0 t (ix3 (0 : Fin 1) n mm) = m ((c : Thread nD τ).loc main_arg1) (ix3 (graphOf t) n mm) := by
  show V m c main_arg1 (((cfg0.win 0).blk t).view.emb (ix3 (0 : Fin 1) n mm)) = _
  rw [V_main_arg1]
  refine congrArg (m ((c : Thread nD τ).loc main_arg1)) ?_
  obtain ⟨e0, e1, e2, -⟩ := idx_facts t
  funext a; apply Fin.ext
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 1024 + 1 * mm.val = mm.val; omega

/-- The feature block at point `t` is graph `t`'s node features. -/
theorem node_read (c : Dev nD) (t : Fin cfg0.N) (mm : Fin 1024) (f : Fin 128) :
    iblk m c 1 t (ix3 (0 : Fin 1) mm f) = m ((c : Thread nD τ).loc main_arg0) (ix3 (graphOf t) mm f) := by
  show V m c main_arg0 (((cfg0.win 1).blk t).view.emb (ix3 (0 : Fin 1) mm f)) = _
  rw [V_main_arg0]
  refine congrArg (m ((c : Thread nD τ).loc main_arg0)) ?_
  obtain ⟨-, -, -, e0, e1, e2, -⟩ := idx_facts t
  funext a; apply Fin.ext
  match a with
  | ⟨0, _⟩ => show win0_1.index t (0 : Fin 3) * 1 + 1 * 0 = t.val; omega
  | ⟨1, _⟩ => show win0_1.index t (1 : Fin 3) * 1024 + 1 * mm.val = mm.val; omega
  | ⟨2, _⟩ => show win0_1.index t (2 : Fin 3) * 128 + 1 * f.val = f.val; omega

/-- The weight block at any point, read at `(f, o)`, is the weight matrix at `(o, f)`. -/
theorem wt_read (c : Dev nD) (t : Fin cfg0.N) (f o : Fin 128) :
    iblk m c 2 t (ix2 f o) = m ((c : Thread nD τ).loc main_arg2) (ix2 o f) := by
  have he : ((cfg0.win 2).blk t).view.emb (ix2 f o) = ix2 f o := by
    obtain ⟨-, -, -, -, -, -, e0, e1, -⟩ := idx_facts t
    funext a; apply Fin.ext
    match a with
    | ⟨0, _⟩ => show win0_2.index t (0 : Fin 2) * 128 + 1 * f.val = f.val; omega
    | ⟨1, _⟩ => show win0_2.index t (1 : Fin 2) * 128 + 1 * o.val = o.val; omega
  show V m c main_v0 (((cfg0.win 2).blk t).view.emb (ix2 f o)) = _
  rw [he, wt_eq, transpose_ix2_apply]

/-- The bias block at any point, read at `(0, o)`, is the bias at `o`. -/
theorem bias_read (c : Dev nD) (t : Fin cfg0.N) (o : Fin 128) :
    iblk m c 3 t (ix2 (0 : Fin 1) o) = m ((c : Thread nD τ).loc main_arg3) (ix1 o) := by
  have he : ((cfg0.win 3).blk t).view.emb (ix2 (0 : Fin 1) o) = ix2 (0 : Fin 1) o := by
    obtain ⟨-, -, -, -, -, -, -, -, e0, e1, -⟩ := idx_facts t
    funext a; apply Fin.ext
    match a with
    | ⟨0, _⟩ => show win0_3.index t (0 : Fin 2) * 1 + 1 * 0 = 0; omega
    | ⟨1, _⟩ => show win0_3.index t (1 : Fin 2) * 128 + 1 * o.val = o.val; omega
  show V m c main_v1 (((cfg0.win 3).blk t).view.emb (ix2 (0 : Fin 1) o)) = _
  rw [he, brow_eq, shapeCast_a_1a_apply]

/-- An entry of the output block at point `t` sits in graph `t`'s slab of the output array. -/
theorem out_emb (t : Fin cfg0.N) (u : Fin 1) (n : Fin 1024) (o : Fin 128) :
    ((cfg0.win 4).blk t).view.emb (ix3 u n o) = ix3 (graphOf t) n o := by
  obtain ⟨-, -, -, -, -, -, -, -, -, -, e0, e1, e2⟩ := idx_facts t
  have hu : u.val = 0 := by omega
  funext a; apply Fin.ext
  match a with
  | ⟨0, _⟩ => show win0_4.index t (0 : Fin 3) * 1 + 1 * u.val = t.val; omega
  | ⟨1, _⟩ => show win0_4.index t (1 : Fin 3) * 1024 + 1 * n.val = n.val; omega
  | ⟨2, _⟩ => show win0_4.index t (2 : Fin 3) * 128 + 1 * o.val = o.val; omega

/-! ## What a point writes back, the cover, the array -/

/-- The layer of the argument arrays as launched. -/
abbrev result (c : Dev nD) : S16x1024x128.Idx → EReal :=
  Cert.Gnn.layer (m ((c : Thread nD τ).loc main_arg0)) (m ((c : Thread nD τ).loc main_arg1))
    (m ((c : Thread nD τ).loc main_arg2)) (m ((c : Thread nD τ).loc main_arg3))

/-- WHAT POINT `t` WRITES BACK is block `t` of the layer of the argument arrays. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero3]
  simp only [View.ld_unit_zero (S := S1x1024x1024) zero3, View.ld_unit_zero (S := S1x1024x128) zero3,
    View.ld_unit_zero (S := S128x128) zero2, View.ld_unit_zero (S := S1x128) zero2]
  funext j
  obtain ⟨u, n, o, rfl⟩ : ∃ (u : Fin 1) (n : Fin 1024) (o : Fin 128), j = ix3 u n o := ⟨j 0, j 1, j 2, eq_ix3 j⟩
  show k0_pay1 (iblk m c 0 t) (iblk m c 1 t) (iblk m c 2 t) (iblk m c 3 t) (ix3 u n o)
    = result m c (((cfg0.win 4).blk t).view.emb (ix3 u n o))
  rw [out_emb]
  show _ = Cert.Gnn.layer _ _ _ _ (ix3 (graphOf t) n o)
  rw [Cert.Gnn.layer_ix3]
  refine (GnnBlock.pay_apply (iblk m c 0 t) (iblk m c 1 t) (iblk m c 2 t) (iblk m c 3 t) u n o).trans ?_
  simp only [adj_read, node_read, wt_read, bias_read]

/-- An index of the output array is in point `t`'s block iff each coordinate is in the block's range on its axis. -/
theorem mem_blk (t : Fin cfg0.N) (i : S16x1024x128.Idx) :
    i ∈ ((cfg0.win 4).blk t).view.set ↔ ∀ a : Fin 3, win0_4.index t a * S1x1024x128.size a ≤ (i a).val ∧ (i a).val < win0_4.index t a * S1x1024x128.size a + S1x1024x128.size a := by
  show i ∈ ((View.whole main_v2).slice (win0_4.rect t)).set ↔ _
  rw [View.set_slice_whole, Rect.mem_set_unit]
  exact Iff.rfl

/-- Every index of the output array lies in the slab of its graph, which that graph's point writes back. -/
theorem cover (i : S16x1024x128.Idx) : ∃ t : Fin cfg0.N, (cfg0.win 4).flush t = true ∧ i ∈ ((cfg0.win 4).blk t).view.set := by
  have h0 : (i 0).val < 16 := (i 0).isLt
  have h1 : (i 1).val < 1024 := (i 1).isLt
  have h2 : (i 2).val < 128 := (i 2).isLt
  have hN : (i 0).val < grid0.N := by rw [N_0]; exact h0
  refine ⟨⟨(i 0).val, hN⟩, flush0_4 _, ?_⟩
  rw [mem_blk]
  obtain ⟨-, -, -, -, -, -, -, -, -, -, e0, e1, e2⟩ := idx_facts ⟨(i 0).val, hN⟩
  have e0' : win0_4.index ⟨(i 0).val, hN⟩ (0 : Fin 3) = (i 0).val := e0
  intro a
  match a with
  | ⟨0, _⟩ => show win0_4.index ⟨(i 0).val, hN⟩ (0 : Fin 3) * 1 ≤ (i 0).val ∧ (i 0).val < win0_4.index ⟨(i 0).val, hN⟩ (0 : Fin 3) * 1 + 1; omega
  | ⟨1, _⟩ => show win0_4.index ⟨(i 0).val, hN⟩ (1 : Fin 3) * 1024 ≤ (i 1).val ∧ (i 1).val < win0_4.index ⟨(i 0).val, hN⟩ (1 : Fin 3) * 1024 + 1024; omega
  | ⟨2, _⟩ => show win0_4.index ⟨(i 0).val, hN⟩ (2 : Fin 3) * 128 ≤ (i 2).val ∧ (i 2).val < win0_4.index ⟨(i 0).val, hN⟩ (2 : Fin 3) * 128 + 128; omega

/-- THE OUTPUT ARRAY after the run is the layer of the argument arrays. -/
theorem final (c : Dev nD) : (dats m 0 c).arrAt 4 cfg0.N = result m c :=
  (dats m 0 c).arrAt_eq_of_cover 4 (result m c) (fun t _ => flushed_eq m c t) cover

/-- The kernel's run, read: the result array ends at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.GnnValue

end
-- ==== Proof.RefValue.lean ====
/-
  The reference program's result is the layer.

  The reference computes, over the whole batch at once: the row sums of the adjacency (a sum started at zero), each
  adjacency entry divided by its row's sum, the batched product with the node features, the product with the weight
  matrix contracted along the weights' second axis, the bias added along the last axis, and the leaky rectifier as a
  select between the value and its product with the slope.  Read at entry `(g, n, o)`, stage by stage, that is
  `Cert.Gnn.entry` of row `n` of graph `g`'s adjacency, graph `g`'s features, row `o` of the weights and
  entry `o` of the bias: the only step that is not a relabelling is that a sum started at zero is the sum.
-/
import proofs.«179167_j24876450579116_1_alg».proof.Proof.Gen.ReferenceIdeal.Read
import proofs.«179167_j24876450579116_1_alg».proof.Proof.GnnSpec
import Idealize.ShloMosaic.PureOps.Ideal.Laws
import Idealize.ShloMosaic.Lib.ValueIdx

noncomputable section

namespace Cert.ReferenceIdeal.GnnRef

open Cert.ReferenceIdeal Cert.ReferenceIdeal.Gen Cert.ReferenceIdeal.Read Idealize.ShloMosaic Idealize.ShloMosaic.ValueIdx

/-! ## The stages' index maps, by coordinates -/

theorem rowsum_idx (g : Fin 16) (n : Fin 1024) (k : Fin 1024) : idx_main_v0 (ix2 g n) k = ix3 g n k :=
  funext fun a => Fin.ext (by match a with | ⟨0, _⟩ => rfl | ⟨1, _⟩ => rfl | ⟨2, _⟩ => rfl)
theorem keep_idx (g : Fin 16) (n : Fin 1024) (u : Fin 1) : idx_main_v1 (ix3 g n u) = ix2 g n :=
  funext fun a => Fin.ext (by match a with | ⟨0, _⟩ => rfl | ⟨1, _⟩ => rfl)
theorem spread_idx (g : Fin 16) (n : Fin 1024) (m : Fin 1024) : idx_main_v2 (ix3 g n m) = ix3 g n (0 : Fin 1) :=
  funext fun a => Fin.ext (by match a with | ⟨0, _⟩ => rfl | ⟨1, _⟩ => rfl | ⟨2, _⟩ => rfl)
theorem mix_lidx (g : Fin 16) (n : Fin 1024) (f : Fin 128) (k : Fin 1024) : lidx_main_v4 (ix3 g n f) k = ix3 g n k :=
  funext fun a => Fin.ext (by match a with | ⟨0, _⟩ => rfl | ⟨1, _⟩ => rfl | ⟨2, _⟩ => rfl)
theorem mix_ridx (g : Fin 16) (n : Fin 1024) (f : Fin 128) (k : Fin 1024) : ridx_main_v4 (ix3 g n f) k = ix3 g k f :=
  funext fun a => Fin.ext (by match a with | ⟨0, _⟩ => rfl | ⟨1, _⟩ => rfl | ⟨2, _⟩ => rfl)
theorem lin_lidx (g : Fin 16) (n : Fin 1024) (o : Fin 128) (k : Fin 128) : lidx_main_v5 (ix3 g n o) k = ix3 g n k :=
  funext fun a => Fin.ext (by match a with | ⟨0, _⟩ => rfl | ⟨1, _⟩ => rfl | ⟨2, _⟩ => rfl)
theorem lin_ridx (g : Fin 16) (n : Fin 1024) (o : Fin 128) (k : Fin 128) : ridx_main_v5 (ix3 g n o) k = ix2 o k :=
  funext fun a => Fin.ext (by match a with | ⟨0, _⟩ => rfl | ⟨1, _⟩ => rfl)
theorem bias_idx (g : Fin 16) (n : Fin 1024) (o : Fin 128) : idx_main_v6 (idx_main_v7 (ix3 g n o)) = ix1 o :=
  funext fun a => Fin.ext (by match a with | ⟨0, _⟩ => rfl)

/-! ## The stages, read at coordinates -/

/-- The normalised adjacency at `(g, n, m)`: the entry over its row's sum. -/
theorem norm_apply (x1 : (⟨S16x1024x1024, .f32⟩ : BufTy).Contents (Elt Ideal)) (g : Fin 16) (n m : Fin 1024) :
    val_main_v3 (F := Ideal) x1 (ix3 g n m) = Ideal.div (x1 (ix3 g n m)) (∑ m' : Fin 1024, x1 (ix3 g n m')) := by
  rw [val_main_v3_apply, val_main_v2_apply, spread_idx, val_main_v1_apply, keep_idx, val_main_v0_apply, val_main_cst_apply]
  show Ideal.div _ (Ideal.ofBits .f32 0x00000000#32 + _) = _
  rw [Ideal.ofBits_zero_f32, zero_add]
  refine congrArg (Ideal.div (x1 (ix3 g n m))) (Finset.sum_congr rfl fun m' _ => ?_)
  rw [rowsum_idx]

/-- The value before the rectifier at `(g, n, o)`. -/
theorem pre_apply (x0 : (⟨S16x1024x128, .f32⟩ : BufTy).Contents (Elt Ideal)) (x1 : (⟨S16x1024x1024, .f32⟩ : BufTy).Contents (Elt Ideal))
    (x2 : (⟨S128x128, .f32⟩ : BufTy).Contents (Elt Ideal)) (x3 : (⟨S128, .f32⟩ : BufTy).Contents (Elt Ideal)) (g : Fin 16) (n : Fin 1024) (o : Fin 128) :
    val_main_v8 (F := Ideal) x0 x1 x2 x3 (ix3 g n o)
      = (∑ f : Fin 128, (∑ m : Fin 1024, Ideal.div (x1 (ix3 g n m)) (∑ m' : Fin 1024, x1 (ix3 g n m')) * x0 (ix3 g m f)) * x2 (ix2 o f))
        + x3 (ix1 o) := by
  rw [val_main_v8_apply, val_main_v5_apply, val_main_v7_apply, val_main_v6_apply, bias_idx]
  refine congrArg₂ (fun a b : EReal => a + b) (Finset.sum_congr rfl fun f _ => ?_) rfl
  rw [lin_lidx, lin_ridx, val_main_v4_apply]
  refine congrArg₂ (fun a b : EReal => a * b) (Finset.sum_congr rfl fun m _ => ?_) rfl
  rw [mix_lidx, mix_ridx, norm_apply]

/-- THE REFERENCE'S RESULT, as a function of the four argument arrays, is the layer. -/
theorem result_eq (x0 : (⟨S16x1024x128, .f32⟩ : BufTy).Contents (Elt Ideal)) (x1 : (⟨S16x1024x1024, .f32⟩ : BufTy).Contents (Elt Ideal))
    (x2 : (⟨S128x128, .f32⟩ : BufTy).Contents (Elt Ideal)) (x3 : (⟨S128, .f32⟩ : BufTy).Contents (Elt Ideal)) :
    val_main_v13 (F := Ideal) x0 x1 x2 x3 = Cert.Gnn.layer x0 x1 x2 x3 := by
  funext i
  obtain ⟨g, n, o, rfl⟩ : ∃ (g : Fin 16) (n : Fin 1024) (o : Fin 128), i = ix3 g n o := ⟨i 0, i 1, i 2, eq_ix3 i⟩
  rw [Cert.Gnn.layer_ix3, val_main_v13_apply, val_main_v10_apply, val_main_v12_apply, val_main_v11_apply, val_main_cst_1_apply,
    val_main_v9_apply, val_main_cst_0_apply, pre_apply]
  rfl

end Cert.ReferenceIdeal.GnnRef

end
-- ==== Proof.lean ====
/-
  A degree-normalised graph layer: the kernel against its reference, over the extended reals.

  Both programs compute, for each of 16 graphs with 1024 nodes, 128 input and 128 output features,
      out[g, n, o] = leaky ( Σ_f ( Σ_m (adj[g, n, m] / Σ_m' adj[g, n, m']) · node[g, m, f] ) · W[o, f]  +  b[o] ),
  the rectifier's slope being the same single-precision constant on both sides.  The kernel handles one graph per
  grid point and multiplies by the weight matrix transposed beforehand; the reference works on the whole batch with
  batched products.  On the extended reals every rounding step is the identity and each product is the plain sum
  over its contracted coordinate, so the two results are one function of the four arguments (`Cert.Gnn.layer`),
  index by index, with no law of arithmetic beyond a sum started at zero being the sum: the precondition is not used.

  The kernel side: `KernelPayload` (the body's value at an entry), `KernelValue` (from the sixteen slabs to the
  array).  The reference side: `RefValue`.  The frames are the generated ones; the reference's frame is its run
  with the result dropped.  The idealisation rewrote nothing, so its conjunct is trivial.
-/
import proofs.«179167_j24876450579116_1_alg».proof.Defs
import proofs.«179167_j24876450579116_1_alg».proof.Proof.Gen.Kernel
import proofs.«179167_j24876450579116_1_alg».proof.Proof.Gen.Kernel.Skeleton
import proofs.«179167_j24876450579116_1_alg».proof.Proof.Gen.Kernel.Launch
import proofs.«179167_j24876450579116_1_alg».proof.Proof.Gen.Kernel.Points
import proofs.«179167_j24876450579116_1_alg».proof.Proof.Gen.Kernel.Frame
import proofs.«179167_j24876450579116_1_alg».proof.Proof.Gen.KernelIdeal
import proofs.«179167_j24876450579116_1_alg».proof.Proof.Gen.KernelIdeal.Skeleton
import proofs.«179167_j24876450579116_1_alg».proof.Proof.Gen.KernelIdeal.Launch
import proofs.«179167_j24876450579116_1_alg».proof.Proof.Gen.KernelIdeal.Points
import proofs.«179167_j24876450579116_1_alg».proof.Proof.Gen.KernelIdeal.Frame
import proofs.«179167_j24876450579116_1_alg».proof.Proof.Gen.ReferenceIdeal
import proofs.«179167_j24876450579116_1_alg».proof.Proof.Gen.Pre_finite_inputs
import proofs.«179167_j24876450579116_1_alg».proof.Proof.Gen.KernelIdeal.Value
import proofs.«179167_j24876450579116_1_alg».proof.Proof.Gen.ReferenceIdeal.Run
import proofs.«179167_j24876450579116_1_alg».proof.Proof.Gen.ReferenceIdeal.Read
import proofs.«179167_j24876450579116_1_alg».proof.Proof.KernelValue
import proofs.«179167_j24876450579116_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer of those arguments. -/
theorem algebraic : Cert.algebraic_KernelIdeal_ReferenceIdeal := by
  intro m ρ m' ρ' _ hagree
  refine ⟨fun c => Cert.KernelIdeal.GnnValue.result m c, Cert.KernelIdeal.GnnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.GnnRef.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
